-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x512x16 : Shape := ⟨3, ![32, 512, 16]⟩
abbrev S_ : Shape := ⟨0, ![]⟩

class Facts : Prop where
  bcast_S_S32x512x16 : S_.BroadcastsInDim S32x512x16 (![] : Fin 0 → Fin S32x512x16.rank)
  reducesTo_S32x512x16_S_d0_1_2 : S32x512x16.ReducesTo [0, 1, 2] S_
  h_S_ : 0 < S_.numel

variable [Facts]

def fn {F : FTy → Type} [FloatOps F] (main_arg0 : IVec S32x512x16 32) (main_arg1 : IVec S32x512x16 32) : IVec S_ 1 :=
  let main_c : IVec S_ 32 := constantI S_ 32 0#32
  let main_v0 : IVec S32x512x16 32 := broadcastInDim S32x512x16 ![] bcast_S_S32x512x16 main_c
  let main_v1 : IVec S32x512x16 1 := cmpi .sge main_arg0 main_v0
  let main_c_0 : IVec S_ 1 := constantI S_ 1 1#1
  let main_v2 : IVec S_ 1 := (fun x v => Host.reduce IntOp.andi x v reducesTo_S32x512x16_S_d0_1_2 h_S_) main_v1 main_c_0
  let main_c_1 : IVec S_ 32 := constantI S_ 32 0#32
  let main_v3 : IVec S32x512x16 32 := broadcastInDim S32x512x16 ![] bcast_S_S32x512x16 main_c_1
  let main_v4 : IVec S32x512x16 1 := cmpi .sge main_arg1 main_v3
  let main_c_2 : IVec S_ 1 := constantI S_ 1 1#1
  let main_v5 : IVec S_ 1 := (fun x v => Host.reduce IntOp.andi x v reducesTo_S32x512x16_S_d0_1_2 h_S_) main_v4 main_c_2
  let main_v6 : IVec S_ 1 := andi main_v2 main_v5
  main_v6
-- ==== Kernel.lean ====
abbrev S32x512x16 : Shape := ⟨3, ![32, 512, 16]⟩
abbrev S16384x16 : Shape := ⟨2, ![16384, 16]⟩
abbrev S16384x2080 : Shape := ⟨2, ![16384, 2080]⟩
abbrev S256x16 : Shape := ⟨2, ![256, 16]⟩
abbrev S256x2080 : Shape := ⟨2, ![256, 2080]⟩
abbrev S256x512 : Shape := ⟨2, ![256, 512]⟩
abbrev S256x1 : Shape := ⟨2, ![256, 1]⟩
abbrev S256x32 : Shape := ⟨2, ![256, 32]⟩
abbrev S32x512x2080 : Shape := ⟨3, ![32, 512, 2080]⟩

abbrev nBuf : Space → Nat
  | .hbm => 6
  | .vmem => 6
  | .smem => 0
  | _ => 0

abbrev bufTy : (tb : Table) → Fin (tcTables nBuf tb) → BufTy
  | .hbm, ⟨0, _⟩ => ⟨S32x512x16, .i32⟩
  | .hbm, ⟨1, _⟩ => ⟨S32x512x16, .i32⟩
  | .hbm, ⟨2, _⟩ => ⟨S16384x16, .i32⟩
  | .hbm, ⟨3, _⟩ => ⟨S16384x16, .i32⟩
  | .hbm, ⟨4, _⟩ => ⟨S16384x2080, .f32⟩
  | .hbm, ⟨5, _⟩ => ⟨S32x512x2080, .f32⟩
  | .local _ .vmem, ⟨0, _⟩ => ⟨S256x16, .i32⟩
  | .local _ .vmem, ⟨1, _⟩ => ⟨S256x16, .i32⟩
  | .local _ .vmem, ⟨2, _⟩ => ⟨S256x16, .i32⟩
  | .local _ .vmem, ⟨3, _⟩ => ⟨S256x16, .i32⟩
  | .local _ .vmem, ⟨4, _⟩ => ⟨S256x2080, .f32⟩
  | .local _ .vmem, ⟨5, _⟩ => ⟨S256x2080, .f32⟩
  | _, _ => ⟨S32x512x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x16_S16384x16 : S32x512x16.ShapeCasts S16384x16
  iota_S256x512_d1_w32 : S256x512.Iotas .tc 32 [1]
  inb_S256x16_S256x1_0_0 : ∀ a, (![0, 0] : Fin 2 → Nat) a + S256x1.size a ≤ S256x16.size a
  h_S256x1 : 0 < S256x1.numel
  shapeCasts_S256x1_S256x1 : S256x1.ShapeCasts S256x1
  broadcasts_S256x1_S256x512 : S256x1.Broadcasts S256x512
  natLt_1_32 : 1 < 32
  bitsLt_bf16_f32 : FTy.bits .bf16 < FTy.bits .f32
  inb_S256x16_S256x1_0_1 : ∀ a, (![0, 1] : Fin 2 → Nat) a + S256x1.size a ≤ S256x16.size a
  inb_S256x16_S256x1_0_2 : ∀ a, (![0, 2] : Fin 2 → Nat) a + S256x1.size a ≤ S256x16.size a
  inb_S256x16_S256x1_0_3 : ∀ a, (![0, 3] : Fin 2 → Nat) a + S256x1.size a ≤ S256x16.size a
  inb_S256x16_S256x1_0_4 : ∀ a, (![0, 4] : Fin 2 → Nat) a + S256x1.size a ≤ S256x16.size a
  inb_S256x16_S256x1_0_5 : ∀ a, (![0, 5] : Fin 2 → Nat) a + S256x1.size a ≤ S256x16.size a
  inb_S256x16_S256x1_0_6 : ∀ a, (![0, 6] : Fin 2 → Nat) a + S256x1.size a ≤ S256x16.size a
  inb_S256x16_S256x1_0_7 : ∀ a, (![0, 7] : Fin 2 → Nat) a + S256x1.size a ≤ S256x16.size a
  inb_S256x16_S256x1_0_8 : ∀ a, (![0, 8] : Fin 2 → Nat) a + S256x1.size a ≤ S256x16.size a
  inb_S256x16_S256x1_0_9 : ∀ a, (![0, 9] : Fin 2 → Nat) a + S256x1.size a ≤ S256x16.size a
  inb_S256x16_S256x1_0_10 : ∀ a, (![0, 10] : Fin 2 → Nat) a + S256x1.size a ≤ S256x16.size a
  inb_S256x16_S256x1_0_11 : ∀ a, (![0, 11] : Fin 2 → Nat) a + S256x1.size a ≤ S256x16.size a
  inb_S256x16_S256x1_0_12 : ∀ a, (![0, 12] : Fin 2 → Nat) a + S256x1.size a ≤ S256x16.size a
  inb_S256x16_S256x1_0_13 : ∀ a, (![0, 13] : Fin 2 → Nat) a + S256x1.size a ≤ S256x16.size a
  inb_S256x16_S256x1_0_14 : ∀ a, (![0, 14] : Fin 2 → Nat) a + S256x1.size a ≤ S256x16.size a
  inb_S256x16_S256x1_0_15 : ∀ a, (![0, 15] : Fin 2 → Nat) a + S256x1.size a ≤ S256x16.size a
  inb_S256x2080_S256x512_0_0 : ∀ a, (![0, 0] : Fin 2 → Nat) a + S256x512.size a ≤ S256x2080.size a
  h_S256x512 : 0 < S256x512.numel
  inb_S256x2080_S256x512_0_512 : ∀ a, (![0, 512] : Fin 2 → Nat) a + S256x512.size a ≤ S256x2080.size a
  inb_S256x2080_S256x512_0_1024 : ∀ a, (![0, 1024] : Fin 2 → Nat) a + S256x512.size a ≤ S256x2080.size a
  inb_S256x2080_S256x512_0_1536 : ∀ a, (![0, 1536] : Fin 2 → Nat) a + S256x512.size a ≤ S256x2080.size a
  iota_S256x32_d1_w32 : S256x32.Iotas .tc 32 [1]
  broadcasts_S256x1_S256x32 : S256x1.Broadcasts S256x32
  inb_S256x2080_S256x32_0_2048 : ∀ a, (![0, 2048] : Fin 2 → Nat) a + S256x32.size a ≤ S256x2080.size a
  h_S256x32 : 0 < S256x32.numel
  shapeCasts_S16384x2080_S32x512x2080 : S16384x2080.ShapeCasts S32x512x2080
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S16384x16.size a
  hwx0_0 : ∀ i : grid0.Coords, EltTy.bits .i32 = 32 ∨ (Rect.block (s := S16384x16) S256x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S16384x16.size a
  hwx0_1 : ∀ i : grid0.Coords, EltTy.bits .i32 = 32 ∨ (Rect.block (s := S16384x16) S256x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2080.size a ≤ S16384x2080.size a
  hwx0_2 : ∀ i : grid0.Coords, EltTy.bits .f32 = 32 ∨ (Rect.block (s := S16384x2080) S256x2080.size (cc0_transform_2 i) (hinb0_2 i)).WholeWords (EltTy.packing .f32)

variable [Facts₀]

abbrev win0_0 : Pipeline.Window sig grid0 :=
  Pipeline.Window.ofSpec (Memref.whole main_v0) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2080.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x16 : Shape := ⟨3, ![32, 512, 16]⟩
abbrev S16384x16 : Shape := ⟨2, ![16384, 16]⟩
abbrev S16384 : Shape := ⟨1, ![16384]⟩
abbrev S16384x1 : Shape := ⟨2, ![16384, 1]⟩
abbrev S_ : Shape := ⟨0, ![]⟩
abbrev S16384x2048 : Shape := ⟨2, ![16384, 2048]⟩
abbrev S16384x16x1 : Shape := ⟨3, ![16384, 16, 1]⟩
abbrev S16384x16x2 : Shape := ⟨3, ![16384, 16, 2]⟩
abbrev S16384x32 : Shape := ⟨2, ![16384, 32]⟩
abbrev S16384x2080 : Shape := ⟨2, ![16384, 2080]⟩
abbrev S32x512x2080 : Shape := ⟨3, ![32, 512, 2080]⟩

abbrev nBuf : Space → Nat
  | .hbm => 58
  | .vmem => 0
  | .smem => 0
  | _ => 0

abbrev bufTy : (tb : Table) → Fin (tcTables nBuf tb) → BufTy
  | .hbm, ⟨0, _⟩ => ⟨S32x512x16, .i32⟩
  | .hbm, ⟨1, _⟩ => ⟨S32x512x16, .i32⟩
  | .hbm, ⟨2, _⟩ => ⟨S16384x16, .i32⟩
  | .hbm, ⟨3, _⟩ => ⟨S16384x16, .i32⟩
  | .hbm, ⟨4, _⟩ => ⟨S16384, .i32⟩
  | .hbm, ⟨5, _⟩ => ⟨S16384x1, .i32⟩
  | .hbm, ⟨6, _⟩ => ⟨S_, .i32⟩
  | .hbm, ⟨7, _⟩ => ⟨S16384x16, .i32⟩
  | .hbm, ⟨8, _⟩ => ⟨S16384x16, .i1⟩
  | .hbm, ⟨9, _⟩ => ⟨S16384x16, .f32⟩
  | .hbm, ⟨10, _⟩ => ⟨S_, .i32⟩
  | .hbm, ⟨11, _⟩ => ⟨S16384x16, .i32⟩
  | .hbm, ⟨12, _⟩ => ⟨S16384x16, .i1⟩
  | .hbm, ⟨13, _⟩ => ⟨S16384x16, .f32⟩
  | .hbm, ⟨14, _⟩ => ⟨S_, .f32⟩
  | .hbm, ⟨15, _⟩ => ⟨S16384x2048, .f32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S_, .i32⟩
  | .hbm, ⟨20, _⟩ => ⟨S16384x1, .i32⟩
  | .hbm, ⟨21, _⟩ => ⟨S16384x1, .i32⟩
  | .hbm, ⟨22, _⟩ => ⟨S16384x1, .i32⟩
  | .hbm, ⟨23, _⟩ => ⟨S_, .i32⟩
  | .hbm, ⟨24, _⟩ => ⟨S16384x16, .i32⟩
  | .hbm, ⟨25, _⟩ => ⟨S16384x16, .i1⟩
  | .hbm, ⟨26, _⟩ => ⟨S_, .i32⟩
  | .hbm, ⟨27, _⟩ => ⟨S16384x16, .i32⟩
  | .hbm, ⟨28, _⟩ => ⟨S16384x16, .i32⟩
  | .hbm, ⟨29, _⟩ => ⟨S16384x16, .i32⟩
  | .hbm, ⟨30, _⟩ => ⟨S16384x16, .i32⟩
  | .hbm, ⟨31, _⟩ => ⟨S16384x16x1, .i32⟩
  | .hbm, ⟨32, _⟩ => ⟨S16384x16x1, .i32⟩
  | .hbm, ⟨33, _⟩ => ⟨S16384x16x2, .i32⟩
  | .hbm, ⟨34, _⟩ => ⟨S16384x2048, .f32⟩
  | .hbm, ⟨35, _⟩ => ⟨S_, .f32⟩
  | .hbm, ⟨36, _⟩ => ⟨S16384x32, .f32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S_, .i32⟩
  | .hbm, ⟨41, _⟩ => ⟨S16384x1, .i32⟩
  | .hbm, ⟨42, _⟩ => ⟨S16384x1, .i32⟩
  | .hbm, ⟨43, _⟩ => ⟨S16384x1, .i32⟩
  | .hbm, ⟨44, _⟩ => ⟨S_, .i32⟩
  | .hbm, ⟨45, _⟩ => ⟨S16384x16, .i32⟩
  | .hbm, ⟨46, _⟩ => ⟨S16384x16, .i1⟩
  | .hbm, ⟨47, _⟩ => ⟨S_, .i32⟩
  | .hbm, ⟨48, _⟩ => ⟨S16384x16, .i32⟩
  | .hbm, ⟨49, _⟩ => ⟨S16384x16, .i32⟩
  | .hbm, ⟨50, _⟩ => ⟨S16384x16, .i32⟩
  | .hbm, ⟨51, _⟩ => ⟨S16384x16, .i32⟩
  | .hbm, ⟨52, _⟩ => ⟨S16384x16x1, .i32⟩
  | .hbm, ⟨53, _⟩ => ⟨S16384x16x1, .i32⟩
  | .hbm, ⟨54, _⟩ => ⟨S16384x16x2, .i32⟩
  | .hbm, ⟨55, _⟩ => ⟨S16384x32, .f32⟩
  | .hbm, ⟨56, _⟩ => ⟨S16384x2080, .f32⟩
  | .hbm, ⟨57, _⟩ => ⟨S32x512x2080, .f32⟩
  | _, _ => ⟨S32x512x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  shapeCasts_S32x512x16_S16384x16 : S32x512x16.ShapeCasts S16384x16
  bcast_S16384_S16384x1_0 : S16384.BroadcastsInDim S16384x1 (![0] : Fin 1 → Fin S16384x1.rank)
  bcast_S_S16384x16 : S_.BroadcastsInDim S16384x16 (![] : Fin 0 → Fin S16384x16.rank)
  bcast_S_S16384x2048 : S_.BroadcastsInDim S16384x2048 (![] : Fin 0 → Fin S16384x2048.rank)
  bcast_S_S16384x1 : S_.BroadcastsInDim S16384x1 (![] : Fin 0 → Fin S16384x1.rank)
  bcast_S16384x1_S16384x16_0_1 : S16384x1.BroadcastsInDim S16384x16 (![0, 1] : Fin 2 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  bcast_S_S16384x32 : S_.BroadcastsInDim S16384x32 (![] : Fin 0 → Fin S16384x32.rank)
  concatenates_S16384x2048_S16384x32_S16384x2080_d1 : Shape.Concatenates [S16384x2048, S16384x32] S16384x2080 1
  shapeCasts_S16384x2080_S32x512x2080 : S16384x2080.ShapeCasts S32x512x2080
  scatter_S16384x2048_S16384x16x2_S16384x16_n_01_01_2_wf : ScatterDims.WF S16384x2048 S16384x16x2 S16384x16 [] [0, 1] [0, 1] 2
  scatter_S16384x32_S16384x16x2_S16384x16_n_01_01_2_wf : ScatterDims.WF S16384x32 S16384x16x2 S16384x16 [] [0, 1] [0, 1] 2

variable [Facts₀]

def scatter_S16384x2048_S16384x16x2_S16384x16_n_01_01_2 : ScatterDims S16384x2048 S16384x16x2 S16384x16 where
  updateWindowDims := []
  insertedWindowDims := [0, 1]
  scatterDimsToOperandDims := [0, 1]
  indexVectorDim := 2
  wf := scatter_S16384x2048_S16384x16x2_S16384x16_n_01_01_2_wf
def scatter_S16384x32_S16384x16x2_S16384x16_n_01_01_2 : ScatterDims S16384x32 S16384x16x2 S16384x16 where
  updateWindowDims := []
  insertedWindowDims := [0, 1]
  scatterDimsToOperandDims := [0, 1]
  indexVectorDim := 2
  wf := scatter_S16384x32_S16384x16x2_S16384x16_n_01_01_2_wf

class Facts : Prop extends Facts₀ where

variable [Facts]
-- ==== Proof.Spec.lean ====
/-
  THE SPECIFICATION: per-row histograms of ids.

  A row holds 16 token ids and 16 position ids (32-bit words). The result row has 2048 token bins followed by 32
  position bins; bin `b` counts the row's ids whose word is `b`, except that the padding id `0` is counted in no bin.
  The kernel says "moved to -1, which is no bin" (`ind`); the reference says "lands on the bin its signed value names,
  with update 1 unless it is the padding id" — for a non-negative id and a bin below 2^31 these agree (`ind_eq_of_nonneg`).
-/
import Idealize.ShloMosaic.PureOps.Ideal
import Idealize.ShloMosaic.Lib.ValueIdx
import Idealize.ShloMosaic.Lib.StableHlo.Predicate

noncomputable section

namespace Cert.Hist

open Idealize.ShloMosaic Idealize.ShloMosaic.ValueIdx

/-- The indicator a column adds at a bin: 1 when the id, with the padding id 0 moved to -1, is the bin's word. -/
def ind (t b : BitVec 32) : EReal := if (if t = 0#32 then 4294967295#32 else t) = b then 1 else 0

/-- How many of row `r`'s 16 ids in a [16384, 16] id array are bin `b`'s word (the padding id in no bin; 0 off the array). -/
def rowCnt (T : (⟨2, ![16384, 16]⟩ : Shape).Idx → BitVec 32) (r b : Nat) : EReal :=
  if h : r < 16384 then ∑ l : Fin 16, ind (T (ix2 (⟨r, h⟩ : Fin 16384) l)) (BitVec.ofNat 32 b) else 0

/-- The whole [16384, 2080] histogram array as one function of the token and position id arrays. -/
def hist2d (T P : (⟨2, ![16384, 16]⟩ : Shape).Idx → BitVec 32) : (⟨2, ![16384, 2080]⟩ : Shape).Idx → EReal := fun i =>
  if (i 1).val < 2048 then rowCnt T (i 0).val (i 1).val else rowCnt P (i 0).val ((i 1).val - 2048)

/-- A non-negative word's signed value is its unsigned one, below 2^31. -/
theorem toNat_lt_of_toInt_nonneg (t : BitVec 32) (ht : 0 ≤ t.toInt) : t.toNat < 2 ^ 31 ∧ t.toInt = (t.toNat : Int) := by
  rw [BitVec.toInt_eq_toNat_cond] at ht ⊢
  have := t.isLt
  split at ht <;> rename_i h
  · rw [if_pos h]; omega
  · omega

/-- For a non-negative id and a bin below 2^31: "its signed value is the bin, counted unless it is the padding id" is the
    indicator "the id, padding moved to -1, is the bin's word". -/
theorem ind_eq_of_nonneg (t : BitVec 32) (ht : 0 ≤ t.toInt) (b : Nat) (hb : b < 2 ^ 31) :
    (if t.toInt = (b : Int) then (if t = 0#32 then (0 : EReal) else 1) else 0) = ind t (BitVec.ofNat 32 b) := by
  obtain ⟨hlt, hint⟩ := toNat_lt_of_toInt_nonneg t ht
  unfold ind
  by_cases h0 : t = 0#32
  · subst h0
    have hne : ¬ (4294967295#32 : BitVec 32) = BitVec.ofNat 32 b := by
      intro h
      have := congrArg BitVec.toNat h
      simp only [BitVec.toNat_ofNat] at this
      omega
    simp only [if_true, hne, if_false, ite_self]
  · simp only [h0, if_false]
    have hiff : t.toInt = (b : Int) ↔ t = BitVec.ofNat 32 b := by
      constructor
      · intro h
        apply BitVec.eq_of_toNat_eq
        simp only [BitVec.toNat_ofNat]
        omega
      · intro h
        rw [hint, h]
        simp only [BitVec.toNat_ofNat]
        omega
    by_cases hc : t = BitVec.ofNat 32 b
    · rw [if_pos (hiff.mpr hc), if_pos hc]
    · rw [if_neg (fun h => hc (hiff.mp h)), if_neg hc]

end Cert.Hist

end
-- ==== Proof.LibScatterAddPairs.lean ====
/-
  GENERAL LEMMA. A `stablehlo.scatter` with an `add` body whose index vectors are (row, column) PAIRS, read at one element.

  The operand is a rank-2 array [R, N]; the scatter indices are a rank-3 array [P, L, 2] whose last axis holds the
  pair; the updates are a rank-2 array [P, L]; both operand axes are scattered (no window axis). Update (p, l) lands
  on the operand element whose row is the SIGNED value of index word (p, l, 0) and whose column is the signed value of
  index word (p, l, 1), and is dropped when either lies outside the operand. Over the extended reals the result at
  element (r, b) is the operand's element plus the sum of the updates that land there (`hostScatterAdd_pairs_apply`).
-/
import Idealize.ShloMosaic.PureOps.Ideal
import Idealize.ShloMosaic.Lib.ValueIdx

noncomputable section

namespace Idealize.ShloMosaic.ScatterPairs

open Idealize.ShloMosaic Idealize.ShloMosaic.ValueIdx

/-- An update lands on element `i` exactly when, on every operand axis, start plus window coordinate is `i`'s
    coordinate (as integers): in range is then automatic, and out of range matches no element. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hin
      intro a
      have e := congrFun (Option.some.inj h) a
      have e' : (d.start j idx a + (d.window j a : Int)).toNat = (i a).val := congrArg Fin.val e
      have := (hin a).1
      omega
    · exact absurd h (by simp)
  · intro h
    have hin : ∀ a, 0 ≤ d.start j idx a + (d.window j a : Int) ∧ d.start j idx a + (d.window j a : Int) < s.size a := by
      intro a
      have := (i a).isLt
      rw [h a]
      omega
    rw [dif_pos hin]
    congr 1
    funext a
    apply Fin.ext
    show (d.start j idx a + (d.window j a : Int)).toNat = (i a).val
    rw [h a]
    omega

variable {R N P L : Nat}

/-- For the pair dimension numbers, update `(p, l)` lands on `(r, b)` exactly when its two index words read, signed,
    `r` and `b`. -/
theorem resultIdx?_pairs (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (j : (⟨2, ![P, L]⟩ : Shape).Idx) (idx : IVec ⟨3, ![P, L, 2]⟩ w)
    (i : (⟨2, ![R, N]⟩ : Shape).Idx) :
    d.resultIdx? j idx = some i ↔
      (idx (ix3 (j 0) (j 1) (0 : Fin 2))).toInt = ((i 0).val : Int) ∧ (idx (ix3 (j 0) (j 1) (1 : Fin 2))).toInt = ((i 1).val : Int) := by
  obtain ⟨uw, iw, sd, iv, wf⟩ := d
  simp only at h1 h2 h3 h4
  subst h1 h2 h3 h4
  rw [resultIdx?_eq_some_iff]
  have hw : ∀ a : Fin 2, ScatterDims.window (s := ⟨2, ![R, N]⟩) ⟨[], [0, 1], [0, 1], 2, wf⟩ j a = 0 := by
    intro a
    unfold ScatterDims.window
    rw [dif_neg]
    show a ∉ (List.finRange 2).filter (· ∉ ([0, 1] : List (Fin 2)))
    fin_cases a <;> decide
  have hmem : ∀ a : Fin 2, a ∈ ([0, 1] : List (Fin 2)) := by intro a; fin_cases a <;> decide
  have hs : ∀ a : Fin 2, ScatterDims.start (s := ⟨2, ![R, N]⟩) ⟨[], [0, 1], [0, 1], 2, wf⟩ j idx a
      = (idx (ix3 (j 0) (j 1) a)).toInt := by
    intro a
    unfold ScatterDims.start
    rw [dif_pos (hmem a)]
    congr 2
    funext b
    unfold ScatterDims.siIdx
    match b with
    | ⟨0, _⟩ =>
      rw [dif_neg (show ¬ (0 : Nat) = 2 by decide)]
      unfold ScatterDims.siCoord
      apply Fin.ext
      rfl
    | ⟨1, _⟩ =>
      rw [dif_neg (show ¬ (1 : Nat) = 2 by decide)]
      unfold ScatterDims.siCoord
      apply Fin.ext
      rfl
    | ⟨2, _⟩ =>
      rw [dif_pos rfl]
      apply Fin.ext
      show List.idxOf a ([0, 1] : List (Fin 2)) = a.val
      fin_cases a <;> rfl
  constructor
  · intro h
    have h0 := h 0
    have h1 := h 1
    rw [hs, hw] at h0 h1
    exact ⟨by simpa using h0, by simpa using h1⟩
  · rintro ⟨e0, e1⟩ a
    rw [hs, hw]
    match a with
    | ⟨0, _⟩ => simpa using e0
    | ⟨1, _⟩ => simpa using e1

open scoped BigOperators

/-- The scatter-add at element `i`, over the extended reals: the operand's element plus, over ALL updates, the
    update where its pair reads `i` and nothing where it does not. -/
theorem hostScatterAdd_pairs_apply (d : ScatterDims ⟨2, ![R, N]⟩ ⟨3, ![P, L, 2]⟩ ⟨2, ![P, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![P, L, 2]⟩ w)
    (upd : (⟨2, ![P, L]⟩ : Shape).Idx → EReal) (i : (⟨2, ![R, N]⟩ : Shape).Idx) :
    Ideal.hostScatterAdd d x idx upd i
      = x i + ∑ p : Fin P, ∑ l : Fin L,
          if (idx (ix3 p l (0 : Fin 2))).toInt = ((i 0).val : Int) ∧ (idx (ix3 p l (1 : Fin 2))).toInt = ((i 1).val : Int)
          then upd (ix2 p l) else 0 := by
  unfold Ideal.hostScatterAdd
  rw [Finset.sum_filter, sum_idx2]
  congr 1
  refine Finset.sum_congr rfl fun p _ => Finset.sum_congr rfl fun l _ => ?_
  have e := resultIdx?_pairs d h1 h2 h3 h4 (ix2 p l) idx i
  by_cases hc : (idx (ix3 p l (0 : Fin 2))).toInt = ((i 0).val : Int) ∧ (idx (ix3 p l (1 : Fin 2))).toInt = ((i 1).val : Int)
  · rw [if_pos (e.mpr hc), if_pos hc]
  · rw [if_neg (fun h => hc (e.mp h)), if_neg hc]

/-- When update `(p, l)`'s row word reads its own row `p` (the rows are an iota), only row `r`'s updates can land on
    `(r, b)`: the result is the operand's element plus the sum over that row's `L` slots of the update whose column word
    reads `b`. -/
theorem hostScatterAdd_ownRow_apply (d : ScatterDims ⟨2, ![R, N]⟩ ⟨3, ![R, L, 2]⟩ ⟨2, ![R, L]⟩)
    (h1 : d.updateWindowDims = []) (h2 : d.insertedWindowDims = [0, 1]) (h3 : d.scatterDimsToOperandDims = [0, 1])
    (h4 : d.indexVectorDim = 2) {w : Nat} (x : (⟨2, ![R, N]⟩ : Shape).Idx → EReal) (idx : IVec ⟨3, ![R, L, 2]⟩ w)
    (upd : (⟨2, ![R, L]⟩ : Shape).Idx → EReal) (hrow : ∀ (p : Fin R) (l : Fin L), (idx (ix3 p l (0 : Fin 2))).toInt = (p.val : Int))
    (r : Fin R) (b : Fin N) :
    Ideal.hostScatterAdd d x idx upd (ix2 r b)
      = x (ix2 r b) + ∑ l : Fin L, if (idx (ix3 r l (1 : Fin 2))).toInt = (b.val : Int) then upd (ix2 r l) else 0 := by
  rw [hostScatterAdd_pairs_apply d h1 h2 h3 h4]
  show x (ix2 r b) + (∑ p : Fin R, ∑ l : Fin L,
      if (idx (ix3 p l (0 : Fin 2))).toInt = (r.val : Int) ∧ (idx (ix3 p l (1 : Fin 2))).toInt = (b.val : Int)
      then upd (ix2 p l) else 0) = _
  congr 1
  rw [Finset.sum_eq_single r]
  · refine Finset.sum_congr rfl fun l _ => ?_
    simp only [hrow, true_and]
  · intro p _ hp
    refine Finset.sum_eq_zero fun l _ => ?_
    rw [if_neg]
    rintro ⟨e, -⟩
    rw [hrow] at e
    exact hp (Fin.ext (by exact_mod_cast e))
  · intro h
    exact absurd (Finset.mem_univ _) h

end Idealize.ShloMosaic.ScatterPairs

end
-- ==== Proof.RefHalf.lean ====
/-
  One half of the reference, over abstract arrays: a scatter-add of "1 unless padding" into a zero [16384, N] array
  at (row, id) pairs is the per-row histogram.

  The scatter's index array holds, for slot (p, l), the pair (row word, id word); the row word reads its own row `p`
  (the rows are an iota), the id word is the id `T (p, l)` itself (ids are non-negative, so jnp's wrap of negative
  indices changes nothing), and the update is 1 unless the id is the padding id 0. Then element (r, b) of the result is
  the number of row `r`'s ids that are `b`, the padding id counted nowhere: the specification's `rowCnt`.
-/
import proofs.«417201_j31868657336782_3_alg».proof.Proof.Spec
import proofs.«417201_j31868657336782_3_alg».proof.Proof.LibScatterAddPairs

noncomputable section

namespace Cert.Hist

open Idealize.ShloMosaic Idealize.ShloMosaic.ValueIdx Idealize.ShloMosaic.ScatterPairs

theorem scatterHalf_apply {N : Nat} (hN : N < 2 ^ 31)
    (d : ScatterDims ⟨2, ![16384, N]⟩ ⟨3, ![16384, 16, 2]⟩ ⟨2, ![16384, 16]⟩)
    (h1 : d.updateWindowDims = []) (h2 : d.insertedWindowDims = [0, 1]) (h3 : d.scatterDimsToOperandDims = [0, 1])
    (h4 : d.indexVectorDim = 2)
    (z : (⟨2, ![16384, N]⟩ : Shape).Idx → EReal) (hz : ∀ i, z i = 0)
    (idx : IVec ⟨3, ![16384, 16, 2]⟩ 32) (upd : (⟨2, ![16384, 16]⟩ : Shape).Idx → EReal)
    (T : (⟨2, ![16384, 16]⟩ : Shape).Idx → BitVec 32) (hT : ∀ i, 0 ≤ (T i).toInt)
    (hrow : ∀ (p : Fin 16384) (l : Fin 16), (idx (ix3 p l (0 : Fin 2))).toInt = (p.val : Int))
    (hcol : ∀ (p : Fin 16384) (l : Fin 16), idx (ix3 p l (1 : Fin 2)) = T (ix2 p l))
    (hupd : ∀ (p : Fin 16384) (l : Fin 16), upd (ix2 p l) = if T (ix2 p l) = 0#32 then 0 else 1)
    (r : Fin 16384) (b : Fin N) :
    Ideal.hostScatterAdd d z idx upd (ix2 r b) = rowCnt T r.val b.val := by
  rw [hostScatterAdd_ownRow_apply d h1 h2 h3 h4 z idx upd hrow r b, hz, zero_add]
  unfold rowCnt
  rw [dif_pos r.isLt]
  refine Finset.sum_congr rfl fun l _ => ?_
  rw [hcol, hupd]
  have hb := b.isLt
  exact ind_eq_of_nonneg (T (ix2 r l)) (hT _) b.val (by omega)

end Cert.Hist

end
-- ==== Proof.RefValue.lean ====
/-
  The reference's value, over the extended reals.

  The reference reshapes the two id arrays to [16384, 16], and for each builds (row, id) pairs — the row an iota, the id
  with jnp's wrap of negative indices — and scatter-adds "1 unless the id is the padding id" into a zero array of
  2048 (tokens) or 32 (positions) columns; it joins the two results along the columns and reshapes to [32, 512, 2080].
  With non-negative ids the wraps do nothing, each half is the per-row histogram (the generic half lemma), and the join
  is the specification's whole-array function `hist2d` of the reshaped arguments.
-/
import proofs.«417201_j31868657336782_3_alg».proof.Proof.RefRead
import proofs.«417201_j31868657336782_3_alg».proof.Proof.RefHalf
import Idealize.ShloMosaic.Lib.Pipeline.Value
import Idealize.ShloMosaic.Lib.Affine
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Cert.Hist
open Idealize.ShloMosaic Idealize.ShloMosaic.ValueIdx

/-- jnp's wrap of a negative index, on a non-negative word: the word itself. -/
theorem select_slt_nonneg (t a : BitVec 32) (ht : 0 ≤ t.toInt) : Scalar.select (IntOp.cmpi .slt t 0#32) a t = t := by
  unfold Scalar.select
  rw [if_neg]
  intro h
  have := IntOp.cmpi_slt.1 h
  simp at this
  omega

/-- "The id is not the padding id", converted to a float: 0 for the padding id, else 1. -/
theorem uitofp_cmpi_ne (t : BitVec 32) :
    FloatOps.uitofp (F := Ideal) .f32 (IntOp.cmpi .ne t 0#32) = if t = 0#32 then 0 else 1 := by
  show (((IntOp.cmpi .ne t 0#32).toNat : ℝ) : EReal) = _
  by_cases h : t = 0#32
  · rw [if_pos h, h]
    have : IntOp.cmpi .ne (0#32) 0#32 = 0#1 := by decide
    rw [this]; norm_num
  · rw [if_neg h]
    have : IntOp.cmpi .ne t 0#32 = 1#1 := IntOp.cmpi_ne.2 h
    rw [this]; norm_num

/-! ## The token half -/

/-- The token ids as the reference reshapes them are non-negative where the argument is. -/
theorem tok_nonneg (x0 : (⟨S32x512x16, .i32⟩ : BufTy).Contents (Elt Ideal)) (h : ∀ i, 0 ≤ (x0 i).toInt) (i : S16384x16.Idx) :
    0 ≤ (val_main_v0 (F := Ideal) x0 i).toInt := by
  rw [val_main_v0_apply]; exact h _

/-- The row word of slot `(p, l)`: the iota's word of `p` (a row number is never negative, so the wrap does nothing). -/
theorem tok_row (x0 : (⟨S32x512x16, .i32⟩ : BufTy).Contents (Elt Ideal)) (p : Fin 16384) (l : Fin 16) :
    (val_main_v24 (F := Ideal) x0 (ix3 p l (0 : Fin 2))).toInt = (p.val : Int) := by
  unfold val_main_v24
  rw [concatenate_pair_apply_left (s₁ := S16384x16x1) (s₂ := S16384x16x1) (2 : Fin 3) _ _ concatenates_S16384x16x1_S16384x16x1_S16384x16x2_d2 (ix3 p l (0 : Fin 2)) rfl
    (ix3 p l (0 : Fin 1)) (fun b => match b with | ⟨0, _⟩ => rfl | ⟨1, _⟩ => rfl | ⟨2, _⟩ => rfl)]
  rw [val_main_v22_apply, val_main_v21_apply]
  have e : idx_main_v21 (idx_main_v22 (ix3 p l (0 : Fin 1))) = ix2 p (0 : Fin 1) :=
    funext fun a => match a with | ⟨0, _⟩ => rfl | ⟨1, _⟩ => rfl
  rw [e, val_main_v15_apply, val_main_v12_apply, val_main_v3_apply, val_main_v2_apply, val_main_v11_apply, val_main_c_1_apply]
  show (Scalar.select (IntOp.cmpi .slt (BitVec.ofNat 32 p.val) 0#32) _ (BitVec.ofNat 32 p.val)).toInt = _
  have hp := p.isLt
  have hint : (BitVec.ofNat 32 p.val).toInt = (p.val : Int) :=
    Idealize.ShloMosaic.StableHlo.Predicate.toInt_ofNat_small p.val (by omega)
  rw [select_slt_nonneg _ _ (by rw [hint]; omega), hint]

/-- The id word of slot `(p, l)`: the id itself (it is non-negative, so the wrap does nothing). -/
theorem tok_col (x0 : (⟨S32x512x16, .i32⟩ : BufTy).Contents (Elt Ideal)) (h : ∀ i, 0 ≤ (x0 i).toInt) (p : Fin 16384) (l : Fin 16) :
    val_main_v24 (F := Ideal) x0 (ix3 p l (1 : Fin 2)) = val_main_v0 (F := Ideal) x0 (ix2 p l) := by
  unfold val_main_v24
  rw [concatenate_pair_apply_right (s₁ := S16384x16x1) (s₂ := S16384x16x1) (2 : Fin 3) _ _ concatenates_S16384x16x1_S16384x16x1_S16384x16x2_d2 (ix3 p l (1 : Fin 2)) rfl rfl
    (ix3 p l (0 : Fin 1)) (fun b hb => match b, hb with | ⟨0, _⟩, _ => rfl | ⟨1, _⟩, _ => rfl | ⟨2, _⟩, hb => absurd rfl hb) rfl]
  rw [val_main_v23_apply]
  have e : idx_main_v23 (ix3 p l (0 : Fin 1)) = ix2 p l := funext fun a => match a with | ⟨0, _⟩ => rfl | ⟨1, _⟩ => rfl
  rw [e, val_main_v20_apply, val_main_v17_apply, val_main_v16_apply, val_main_c_3_apply]
  exact select_slt_nonneg _ _ (tok_nonneg x0 h _)

/-- The update of slot `(p, l)`: 1 unless the id is the padding id 0. -/
theorem tok_upd (x0 : (⟨S32x512x16, .i32⟩ : BufTy).Contents (Elt Ideal)) (p : Fin 16384) (l : Fin 16) :
    val_main_v6 (F := Ideal) x0 (ix2 p l) = if val_main_v0 (F := Ideal) x0 (ix2 p l) = 0#32 then 0 else 1 := by
  rw [val_main_v6_apply, val_main_v5_apply, val_main_v4_apply, val_main_c_apply]
  exact uitofp_cmpi_ne _

/-- The scatter's operand is the zero array. -/
theorem tok_zero (i : S16384x2048.Idx) : val_main_v10 (F := Ideal) i = 0 := by
  rw [val_main_v10_apply, val_main_cst_apply]
  exact Ideal.ofBits_zero_f32

/-- The token half of the reference at `(r, b)`: how many of row `r`'s token ids are `b`, padding counted nowhere. -/
theorem tok_half (x0 : (⟨S32x512x16, .i32⟩ : BufTy).Contents (Elt Ideal)) (h : ∀ i, 0 ≤ (x0 i).toInt) (r : Fin 16384) (b : Fin 2048) :
    val_main_v25 (F := Ideal) x0 (ix2 r b) = rowCnt (val_main_v0 (F := Ideal) x0) r.val b.val :=
  scatterHalf_apply (by norm_num) scatter_S16384x2048_S16384x16x2_S16384x16_n_01_01_2 rfl rfl rfl rfl
    (val_main_v10 (F := Ideal)) tok_zero (val_main_v24 (F := Ideal) x0) (val_main_v6 (F := Ideal) x0)
    (val_main_v0 (F := Ideal) x0) (tok_nonneg x0 h) (tok_row x0) (tok_col x0 h) (tok_upd x0) r b

/-! ## The position half -/

/-- The position ids as the reference reshapes them are non-negative where the argument is. -/
theorem pos_nonneg (x1 : (⟨S32x512x16, .i32⟩ : BufTy).Contents (Elt Ideal)) (h : ∀ i, 0 ≤ (x1 i).toInt) (i : S16384x16.Idx) :
    0 ≤ (val_main_v1 (F := Ideal) x1 i).toInt := by
  rw [val_main_v1_apply]; exact h _

/-- The row word of slot `(p, l)`: the iota's word of `p` (a row number is never negative, so the wrap does nothing). -/
theorem pos_row (x1 : (⟨S32x512x16, .i32⟩ : BufTy).Contents (Elt Ideal)) (p : Fin 16384) (l : Fin 16) :
    (val_main_v40 (F := Ideal) x1 (ix3 p l (0 : Fin 2))).toInt = (p.val : Int) := by
  unfold val_main_v40
  rw [concatenate_pair_apply_left (s₁ := S16384x16x1) (s₂ := S16384x16x1) (2 : Fin 3) _ _ concatenates_S16384x16x1_S16384x16x1_S16384x16x2_d2 (ix3 p l (0 : Fin 2)) rfl
    (ix3 p l (0 : Fin 1)) (fun b => match b with | ⟨0, _⟩ => rfl | ⟨1, _⟩ => rfl | ⟨2, _⟩ => rfl)]
  rw [val_main_v38_apply, val_main_v37_apply]
  have e : idx_main_v37 (idx_main_v38 (ix3 p l (0 : Fin 1))) = ix2 p (0 : Fin 1) :=
    funext fun a => match a with | ⟨0, _⟩ => rfl | ⟨1, _⟩ => rfl
  rw [e, val_main_v31_apply, val_main_v28_apply, val_main_v3_apply, val_main_v2_apply, val_main_v27_apply, val_main_c_6_apply]
  show (Scalar.select (IntOp.cmpi .slt (BitVec.ofNat 32 p.val) 0#32) _ (BitVec.ofNat 32 p.val)).toInt = _
  have hp := p.isLt
  have hint : (BitVec.ofNat 32 p.val).toInt = (p.val : Int) :=
    Idealize.ShloMosaic.StableHlo.Predicate.toInt_ofNat_small p.val (by omega)
  rw [select_slt_nonneg _ _ (by rw [hint]; omega), hint]

/-- The id word of slot `(p, l)`: the id itself (it is non-negative, so the wrap does nothing). -/
theorem pos_col (x1 : (⟨S32x512x16, .i32⟩ : BufTy).Contents (Elt Ideal)) (h : ∀ i, 0 ≤ (x1 i).toInt) (p : Fin 16384) (l : Fin 16) :
    val_main_v40 (F := Ideal) x1 (ix3 p l (1 : Fin 2)) = val_main_v1 (F := Ideal) x1 (ix2 p l) := by
  unfold val_main_v40
  rw [concatenate_pair_apply_right (s₁ := S16384x16x1) (s₂ := S16384x16x1) (2 : Fin 3) _ _ concatenates_S16384x16x1_S16384x16x1_S16384x16x2_d2 (ix3 p l (1 : Fin 2)) rfl rfl
    (ix3 p l (0 : Fin 1)) (fun b hb => match b, hb with | ⟨0, _⟩, _ => rfl | ⟨1, _⟩, _ => rfl | ⟨2, _⟩, hb => absurd rfl hb) rfl]
  rw [val_main_v39_apply]
  have e : idx_main_v39 (ix3 p l (0 : Fin 1)) = ix2 p l := funext fun a => match a with | ⟨0, _⟩ => rfl | ⟨1, _⟩ => rfl
  rw [e, val_main_v36_apply, val_main_v33_apply, val_main_v32_apply, val_main_c_8_apply]
  exact select_slt_nonneg _ _ (pos_nonneg x1 h _)

/-- The update of slot `(p, l)`: 1 unless the id is the padding id 0. -/
theorem pos_upd (x1 : (⟨S32x512x16, .i32⟩ : BufTy).Contents (Elt Ideal)) (p : Fin 16384) (l : Fin 16) :
    val_main_v9 (F := Ideal) x1 (ix2 p l) = if val_main_v1 (F := Ideal) x1 (ix2 p l) = 0#32 then 0 else 1 := by
  rw [val_main_v9_apply, val_main_v8_apply, val_main_v7_apply, val_main_c_0_apply]
  exact uitofp_cmpi_ne _

/-- The scatter's operand is the zero array. -/
theorem pos_zero (i : S16384x32.Idx) : val_main_v26 (F := Ideal) i = 0 := by
  rw [val_main_v26_apply, val_main_cst_5_apply]
  exact Ideal.ofBits_zero_f32

/-- The position half of the reference at `(r, b)`: how many of row `r`'s position ids are `b`, padding counted nowhere. -/
theorem pos_half (x1 : (⟨S32x512x16, .i32⟩ : BufTy).Contents (Elt Ideal)) (h : ∀ i, 0 ≤ (x1 i).toInt) (r : Fin 16384) (b : Fin 32) :
    val_main_v41 (F := Ideal) x1 (ix2 r b) = rowCnt (val_main_v1 (F := Ideal) x1) r.val b.val :=
  scatterHalf_apply (by norm_num) scatter_S16384x32_S16384x16x2_S16384x16_n_01_01_2 rfl rfl rfl rfl
    (val_main_v26 (F := Ideal)) pos_zero (val_main_v40 (F := Ideal) x1) (val_main_v9 (F := Ideal) x1)
    (val_main_v1 (F := Ideal) x1) (pos_nonneg x1 h) (pos_row x1) (pos_col x1 h) (pos_upd x1) r b

/-! ## The two halves joined, and the final reshape -/

/-- The joined [16384, 2080] array is the whole array's function of the two reshaped id arrays. -/
theorem v42_eq (x0 x1 : (⟨S32x512x16, .i32⟩ : BufTy).Contents (Elt Ideal))
    (h0 : ∀ i, 0 ≤ (x0 i).toInt) (h1 : ∀ i, 0 ≤ (x1 i).toInt) :
    val_main_v42 (F := Ideal) x0 x1 = hist2d (val_main_v0 (F := Ideal) x0) (val_main_v1 (F := Ideal) x1) := by
  funext i
  obtain ⟨r, b, rfl⟩ : ∃ (r : Fin 16384) (b : Fin 2080), i = ix2 r b := ⟨i 0, i 1, eq_ix2 i⟩
  unfold val_main_v42 hist2d
  have hbl := b.isLt
  by_cases hb : b.val < 2048
  · rw [concatenate_pair_apply_left (s₁ := S16384x2048) (s₂ := S16384x32) (1 : Fin 2) _ _ concatenates_S16384x2048_S16384x32_S16384x2080_d1 (ix2 r b) rfl
      (ix2 r (⟨b.val, hb⟩ : Fin 2048)) (fun a => match a with | ⟨0, _⟩ => rfl | ⟨1, _⟩ => rfl)]
    rw [tok_half x0 h0 r ⟨b.val, hb⟩]
    show _ = if b.val < 2048 then rowCnt _ r.val b.val else _
    rw [if_pos hb]
  · have hb' : b.val - 2048 < 32 := by omega
    rw [concatenate_pair_apply_right (s₁ := S16384x2048) (s₂ := S16384x32) (1 : Fin 2) _ _ concatenates_S16384x2048_S16384x32_S16384x2080_d1 (ix2 r b) rfl rfl
      (ix2 r (⟨b.val - 2048, hb'⟩ : Fin 32)) (fun a ha => match a, ha with | ⟨0, _⟩, _ => rfl | ⟨1, _⟩, ha => absurd rfl ha)
      (by show b.val - 2048 + 2048 = b.val; omega)]
    rw [pos_half x1 h1 r ⟨b.val - 2048, hb'⟩]
    show _ = if b.val < 2048 then _ else rowCnt _ r.val (b.val - 2048)
    rw [if_neg hb]

/-- The reference's result: the whole array's function of the reshaped arguments, reshaped to [32, 512, 2080]. -/
theorem v43_eq (x0 x1 : (⟨S32x512x16, .i32⟩ : BufTy).Contents (Elt Ideal))
    (h0 : ∀ i, 0 ≤ (x0 i).toInt) (h1 : ∀ i, 0 ≤ (x1 i).toInt) :
    val_main_v43 (F := Ideal) x0 x1
      = shapeCast S32x512x2080
          (hist2d (shapeCast S16384x16 x0 shapeCasts_S32x512x16_S16384x16) (shapeCast S16384x16 x1 shapeCasts_S32x512x16_S16384x16))
          shapeCasts_S16384x2080_S32x512x2080 := by
  unfold val_main_v43
  rw [v42_eq x0 x1 h0 h1]
  rfl

end Cert.ReferenceIdeal.RefValue

end
-- ==== Proof.KernelSteps.lean ====
/-
  The kernel body in a uniform vocabulary.

  The body is unrolled: for each of four strips of 512 token bins it adds, column by column over the 16 columns of
  the token block, the indicator "this row's id in that column, with the padding id 0 moved to -1, equals the bin",
  accumulating in bf16 and widening once at the end; then the same over the position block for the 32 position bins,
  accumulating in f32. Here each strip is ONE term — a left fold of one uniform step over the block's 16 columns —
  and each printed composition of payloads is that term (`piece*_eq`, by unfolding).
-/
import proofs.«417201_j31868657336782_3_alg».proof.Proof.Gen.KernelIdeal.Skeleton
import proofs.«417201_j31868657336782_3_alg».proof.Proof.Spec
import Idealize.ShloMosaic.Lib.Pipeline.FrameBody
import Idealize.ShloMosaic.Lib.Pipeline.Value
import Idealize.ShloMosaic.Lib.ValueIdx
import Idealize.ShloMosaic.Lib.IdealHost
import Idealize.ShloMosaic.Lib.StableHlo.Predicate

set_option maxRecDepth 16384

noncomputable section

namespace Cert.KernelIdeal.Hist

open Cert.KernelIdeal Cert.KernelIdeal.Gen Cert.Hist Idealize.ShloMosaic Idealize.SL.Sem

variable {F : FTy → Type} [FloatOps F]

/-- A column of ids with the padding id `0` moved to `-1`, which is no bin. -/
def masked (col : Vec F S256x1 .i32) : IVec S256x1 32 :=
  select (cmpi .eq (shapeCast S256x1 col shapeCasts_S256x1_S256x1) (broadcast S256x1 0#32))
    (broadcast S256x1 4294967295#32) (shapeCast S256x1 col shapeCasts_S256x1_S256x1)

/-- One column's contribution to a strip of 512 token bins: 1 where the masked id is the bin, in bf16. -/
def hitTok (bins : IVec S256x512 32) (col : Vec F S256x1 .i32) : FVec F S256x512 .bf16 :=
  truncf .bf16 (sitofp .f32 (extui 32 (cmpi .eq (broadcastTo S256x512 (masked col) broadcasts_S256x1_S256x512) bins) natLt_1_32))
    bitsLt_bf16_f32

/-- One column's contribution to the 32 position bins, in f32. -/
def hitPos (bins : IVec S256x32 32) (col : Vec F S256x1 .i32) : FVec F S256x32 .f32 :=
  sitofp .f32 (extui 32 (cmpi .eq (broadcastTo S256x32 (masked col) broadcasts_S256x1_S256x32) bins) natLt_1_32)

/-- The 16 columns of a block of ids, first to last. -/
def cols (x : Vec F S256x16 .i32) : List (Vec F S256x1 .i32) :=
  [View.ld x (Rect.unit ![0, 0] ![256, 1] inb_S256x16_S256x1_0_0),
    View.ld x (Rect.unit ![0, 1] ![256, 1] inb_S256x16_S256x1_0_1),
    View.ld x (Rect.unit ![0, 2] ![256, 1] inb_S256x16_S256x1_0_2),
    View.ld x (Rect.unit ![0, 3] ![256, 1] inb_S256x16_S256x1_0_3),
    View.ld x (Rect.unit ![0, 4] ![256, 1] inb_S256x16_S256x1_0_4),
    View.ld x (Rect.unit ![0, 5] ![256, 1] inb_S256x16_S256x1_0_5),
    View.ld x (Rect.unit ![0, 6] ![256, 1] inb_S256x16_S256x1_0_6),
    View.ld x (Rect.unit ![0, 7] ![256, 1] inb_S256x16_S256x1_0_7),
    View.ld x (Rect.unit ![0, 8] ![256, 1] inb_S256x16_S256x1_0_8),
    View.ld x (Rect.unit ![0, 9] ![256, 1] inb_S256x16_S256x1_0_9),
    View.ld x (Rect.unit ![0, 10] ![256, 1] inb_S256x16_S256x1_0_10),
    View.ld x (Rect.unit ![0, 11] ![256, 1] inb_S256x16_S256x1_0_11),
    View.ld x (Rect.unit ![0, 12] ![256, 1] inb_S256x16_S256x1_0_12),
    View.ld x (Rect.unit ![0, 13] ![256, 1] inb_S256x16_S256x1_0_13),
    View.ld x (Rect.unit ![0, 14] ![256, 1] inb_S256x16_S256x1_0_14),
    View.ld x (Rect.unit ![0, 15] ![256, 1] inb_S256x16_S256x1_0_15)]

/-- A strip of token counts: from the bf16 zero, every column's contribution added in column order, then widened. -/
def tokStrip (bins : IVec S256x512 32) (x : Vec F S256x16 .i32) : FVec F S256x512 .f32 :=
  extf .f32 ((cols x).foldl (fun acc col => addf acc (hitTok bins col)) (broadcast S256x512 (Scalar.ofBits .bf16 0x0000#16)))
    bitsLt_bf16_f32

/-- The position counts: from the f32 zero, every column's contribution added in column order. -/
def posStrip (bins : IVec S256x32 32) (x : Vec F S256x16 .i32) : FVec F S256x32 .f32 :=
  (cols x).foldl (fun acc col => addf acc (hitPos bins col)) (broadcast S256x32 (Scalar.ofBits .f32 0x00000000#32))

/-- The stored value of the first strip (bins 0 … 511) is the strip's term. -/
theorem piece0_eq (x0 : Vec F S256x16 .i32) :
    k0_pay12 k0_pay2
      (k0_pay8 k0_pay2
        (k0_pay6 k0_pay2
          (k0_pay5 k0_pay2 (k0_pay3 (View.ld x0 (Rect.unit ![0, 0] ![256, 1] inb_S256x16_S256x1_0_0)) (View.ld x0 (Rect.unit ![0, 1] ![256, 1] inb_S256x16_S256x1_0_1)) (View.ld x0 (Rect.unit ![0, 2] ![256, 1] inb_S256x16_S256x1_0_2))) (k0_pay4 (View.ld x0 (Rect.unit ![0, 3] ![256, 1] inb_S256x16_S256x1_0_3))) (0#32)
            (View.ld x0 (Rect.unit ![0, 4] ![256, 1] inb_S256x16_S256x1_0_4)) (View.ld x0 (Rect.unit ![0, 5] ![256, 1] inb_S256x16_S256x1_0_5)) (View.ld x0 (Rect.unit ![0, 6] ![256, 1] inb_S256x16_S256x1_0_6)))
          (View.ld x0 (Rect.unit ![0, 7] ![256, 1] inb_S256x16_S256x1_0_7)) (View.ld x0 (Rect.unit ![0, 8] ![256, 1] inb_S256x16_S256x1_0_8)) (View.ld x0 (Rect.unit ![0, 9] ![256, 1] inb_S256x16_S256x1_0_9)))
        (k0_pay7 k0_pay2 (View.ld x0 (Rect.unit ![0, 10] ![256, 1] inb_S256x16_S256x1_0_10))) (View.ld x0 (Rect.unit ![0, 11] ![256, 1] inb_S256x16_S256x1_0_11)) (View.ld x0 (Rect.unit ![0, 12] ![256, 1] inb_S256x16_S256x1_0_12)) (View.ld x0 (Rect.unit ![0, 13] ![256, 1] inb_S256x16_S256x1_0_13)))
      (k0_pay9 (View.ld x0 (Rect.unit ![0, 14] ![256, 1] inb_S256x16_S256x1_0_14))) (k0_pay10 (View.ld x0 (Rect.unit ![0, 14] ![256, 1] inb_S256x16_S256x1_0_14))) k0_pay11 (View.ld x0 (Rect.unit ![0, 15] ![256, 1] inb_S256x16_S256x1_0_15))
    = tokStrip k0_pay2 x0 := rfl

/-- The stored value of the position strip is the strip's term. -/
theorem piecePos_eq (x1 : Vec F S256x16 .i32) :
    k0_pay1 (iota Kind.tc S256x32 32 [1] iota_S256x32_d1_w32)
      (k0_pay55 (iota Kind.tc S256x32 32 [1] iota_S256x32_d1_w32)
        (k0_pay52 (iota Kind.tc S256x32 32 [1] iota_S256x32_d1_w32)
          (k0_pay49 (iota Kind.tc S256x32 32 [1] iota_S256x32_d1_w32)
            (k0_pay46 (iota Kind.tc S256x32 32 [1] iota_S256x32_d1_w32) k0_pay43 (k0_pay44 (View.ld x1 (Rect.unit ![0, 0] ![256, 1] inb_S256x16_S256x1_0_0))) (k0_pay45 (View.ld x1 (Rect.unit ![0, 0] ![256, 1] inb_S256x16_S256x1_0_0)))
              (4294967295#32) (View.ld x1 (Rect.unit ![0, 1] ![256, 1] inb_S256x16_S256x1_0_1)) (View.ld x1 (Rect.unit ![0, 2] ![256, 1] inb_S256x16_S256x1_0_2)) (View.ld x1 (Rect.unit ![0, 3] ![256, 1] inb_S256x16_S256x1_0_3)))
            (k0_pay47 (View.ld x1 (Rect.unit ![0, 4] ![256, 1] inb_S256x16_S256x1_0_4))) (k0_pay48 (View.ld x1 (Rect.unit ![0, 4] ![256, 1] inb_S256x16_S256x1_0_4))) (4294967295#32) (View.ld x1 (Rect.unit ![0, 5] ![256, 1] inb_S256x16_S256x1_0_5)) (View.ld x1 (Rect.unit ![0, 6] ![256, 1] inb_S256x16_S256x1_0_6)) (View.ld x1 (Rect.unit ![0, 7] ![256, 1] inb_S256x16_S256x1_0_7)))
          (k0_pay50 (View.ld x1 (Rect.unit ![0, 8] ![256, 1] inb_S256x16_S256x1_0_8))) (k0_pay51 (View.ld x1 (Rect.unit ![0, 8] ![256, 1] inb_S256x16_S256x1_0_8))) (4294967295#32) (View.ld x1 (Rect.unit ![0, 9] ![256, 1] inb_S256x16_S256x1_0_9)) (View.ld x1 (Rect.unit ![0, 10] ![256, 1] inb_S256x16_S256x1_0_10)) (View.ld x1 (Rect.unit ![0, 11] ![256, 1] inb_S256x16_S256x1_0_11)))
        (k0_pay53 (View.ld x1 (Rect.unit ![0, 12] ![256, 1] inb_S256x16_S256x1_0_12))) (k0_pay54 (View.ld x1 (Rect.unit ![0, 12] ![256, 1] inb_S256x16_S256x1_0_12))) (4294967295#32) (View.ld x1 (Rect.unit ![0, 13] ![256, 1] inb_S256x16_S256x1_0_13)) (View.ld x1 (Rect.unit ![0, 14] ![256, 1] inb_S256x16_S256x1_0_14)))
      (View.ld x1 (Rect.unit ![0, 15] ![256, 1] inb_S256x16_S256x1_0_15))
    = posStrip (iota Kind.tc S256x32 32 [1] iota_S256x32_d1_w32) x1 := rfl

/-- The stored value of the second strip (bins 512 … 1023) is the strip's term. -/
theorem piece1_eq (x0 : Vec F S256x16 .i32) :
    k0_pay22 k0_pay13
      (k0_pay20 k0_pay13
        (k0_pay19 k0_pay13
          (k0_pay16 k0_pay13 (k0_pay14 (View.ld x0 (Rect.unit ![0, 0] ![256, 1] inb_S256x16_S256x1_0_0))) (k0_pay15 (View.ld x0 (Rect.unit ![0, 1] ![256, 1] inb_S256x16_S256x1_0_1))) (View.ld x0 (Rect.unit ![0, 2] ![256, 1] inb_S256x16_S256x1_0_2)) (View.ld x0 (Rect.unit ![0, 3] ![256, 1] inb_S256x16_S256x1_0_3)) (View.ld x0 (Rect.unit ![0, 4] ![256, 1] inb_S256x16_S256x1_0_4)))
          (k0_pay17 (View.ld x0 (Rect.unit ![0, 5] ![256, 1] inb_S256x16_S256x1_0_5))) k0_pay18 (View.ld x0 (Rect.unit ![0, 6] ![256, 1] inb_S256x16_S256x1_0_6)) (View.ld x0 (Rect.unit ![0, 7] ![256, 1] inb_S256x16_S256x1_0_7)) (View.ld x0 (Rect.unit ![0, 8] ![256, 1] inb_S256x16_S256x1_0_8)))
        (View.ld x0 (Rect.unit ![0, 9] ![256, 1] inb_S256x16_S256x1_0_9)) (View.ld x0 (Rect.unit ![0, 10] ![256, 1] inb_S256x16_S256x1_0_10)) (View.ld x0 (Rect.unit ![0, 11] ![256, 1] inb_S256x16_S256x1_0_11)))
      (k0_pay21 k0_pay13 (View.ld x0 (Rect.unit ![0, 12] ![256, 1] inb_S256x16_S256x1_0_12))) (View.ld x0 (Rect.unit ![0, 13] ![256, 1] inb_S256x16_S256x1_0_13)) (View.ld x0 (Rect.unit ![0, 14] ![256, 1] inb_S256x16_S256x1_0_14)) (View.ld x0 (Rect.unit ![0, 15] ![256, 1] inb_S256x16_S256x1_0_15))
    = tokStrip k0_pay13 x0 := rfl

/-- The stored value of the third strip (bins 1024 … 1535) is the strip's term. -/
theorem piece2_eq (x0 : Vec F S256x16 .i32) :
    k0_pay32 k0_pay23
      (k0_pay30 k0_pay23
        (k0_pay29 k0_pay23
          (k0_pay26 k0_pay23 (k0_pay24 k0_pay23 (FloatOps.ofBits FTy.bf16 0#16) (View.ld x0 (Rect.unit ![0, 0] ![256, 1] inb_S256x16_S256x1_0_0)) (View.ld x0 (Rect.unit ![0, 1] ![256, 1] inb_S256x16_S256x1_0_1)) (View.ld x0 (Rect.unit ![0, 2] ![256, 1] inb_S256x16_S256x1_0_2)))
            (k0_pay25 (View.ld x0 (Rect.unit ![0, 3] ![256, 1] inb_S256x16_S256x1_0_3))) (View.ld x0 (Rect.unit ![0, 4] ![256, 1] inb_S256x16_S256x1_0_4)) (View.ld x0 (Rect.unit ![0, 5] ![256, 1] inb_S256x16_S256x1_0_5)) (View.ld x0 (Rect.unit ![0, 6] ![256, 1] inb_S256x16_S256x1_0_6)))
          (k0_pay27 (View.ld x0 (Rect.unit ![0, 7] ![256, 1] inb_S256x16_S256x1_0_7))) (k0_pay28 (View.ld x0 (Rect.unit ![0, 7] ![256, 1] inb_S256x16_S256x1_0_7))) (View.ld x0 (Rect.unit ![0, 8] ![256, 1] inb_S256x16_S256x1_0_8)) (View.ld x0 (Rect.unit ![0, 9] ![256, 1] inb_S256x16_S256x1_0_9)) (View.ld x0 (Rect.unit ![0, 10] ![256, 1] inb_S256x16_S256x1_0_10)))
        (View.ld x0 (Rect.unit ![0, 11] ![256, 1] inb_S256x16_S256x1_0_11)) (View.ld x0 (Rect.unit ![0, 12] ![256, 1] inb_S256x16_S256x1_0_12)) (View.ld x0 (Rect.unit ![0, 13] ![256, 1] inb_S256x16_S256x1_0_13)))
      (k0_pay31 k0_pay23 (View.ld x0 (Rect.unit ![0, 14] ![256, 1] inb_S256x16_S256x1_0_14))) (View.ld x0 (Rect.unit ![0, 15] ![256, 1] inb_S256x16_S256x1_0_15))
    = tokStrip k0_pay23 x0 := rfl

/-- The stored value of the fourth strip (bins 1536 … 2047) is the strip's term. -/
theorem piece3_eq (x0 : Vec F S256x16 .i32) :
    k0_pay42 k0_pay33
      (k0_pay40 k0_pay33
        (k0_pay37 k0_pay33
          (k0_pay35 k0_pay33 (k0_pay34 (View.ld x0 (Rect.unit ![0, 0] ![256, 1] inb_S256x16_S256x1_0_0)) (View.ld x0 (Rect.unit ![0, 1] ![256, 1] inb_S256x16_S256x1_0_1))) (View.ld x0 (Rect.unit ![0, 2] ![256, 1] inb_S256x16_S256x1_0_2)) (View.ld x0 (Rect.unit ![0, 3] ![256, 1] inb_S256x16_S256x1_0_3)) (View.ld x0 (Rect.unit ![0, 4] ![256, 1] inb_S256x16_S256x1_0_4)))
          (k0_pay36 k0_pay33 (View.ld x0 (Rect.unit ![0, 5] ![256, 1] inb_S256x16_S256x1_0_5))) (View.ld x0 (Rect.unit ![0, 6] ![256, 1] inb_S256x16_S256x1_0_6)) (View.ld x0 (Rect.unit ![0, 7] ![256, 1] inb_S256x16_S256x1_0_7)) (View.ld x0 (Rect.unit ![0, 8] ![256, 1] inb_S256x16_S256x1_0_8)))
        (k0_pay38 (View.ld x0 (Rect.unit ![0, 9] ![256, 1] inb_S256x16_S256x1_0_9))) (k0_pay39 (View.ld x0 (Rect.unit ![0, 9] ![256, 1] inb_S256x16_S256x1_0_9))) (4294967295#32) (View.ld x0 (Rect.unit ![0, 10] ![256, 1] inb_S256x16_S256x1_0_10)) (View.ld x0 (Rect.unit ![0, 11] ![256, 1] inb_S256x16_S256x1_0_11)) (View.ld x0 (Rect.unit ![0, 12] ![256, 1] inb_S256x16_S256x1_0_12)))
      (k0_pay41 (View.ld x0 (Rect.unit ![0, 13] ![256, 1] inb_S256x16_S256x1_0_13))) (View.ld x0 (Rect.unit ![0, 14] ![256, 1] inb_S256x16_S256x1_0_14)) (View.ld x0 (Rect.unit ![0, 15] ![256, 1] inb_S256x16_S256x1_0_15))
    = tokStrip k0_pay33 x0 := rfl

/-! ## Read at an index, over the extended reals -/

open Idealize.ShloMosaic.ValueIdx

theorem select_cmpi_eq (t a b : BitVec 32) :
    Scalar.select (IntOp.cmpi .eq t 0#32) a b = if t = 0#32 then a else b := by
  by_cases h : t = 0#32
  · rw [if_pos h, h]; rfl
  · rw [if_neg h]
    unfold Scalar.select
    rw [if_neg]
    intro hc
    exact h (Idealize.ShloMosaic.StableHlo.Predicate.cmpi_eq_iff.mp hc)

theorem masked_apply (col : Vec Ideal S256x1 .i32) (p : Fin 256) :
    masked col (ix2 p (0 : Fin 1)) = if col (ix2 p (0 : Fin 1)) = 0#32 then 4294967295#32 else col (ix2 p (0 : Fin 1)) := by
  unfold masked
  rw [Idealize.ShloMosaic.shapeCast_self]
  exact select_cmpi_eq _ _ _

/-- An `i1` comparison widened to 32 bits and converted, as an extended real: 1 when the words are equal, else 0. -/
theorem sitofp_extui_cmpi_eq (a b : BitVec 32) :
    (((( IntOp.cmpi .eq a b).setWidth 32).toInt : ℝ) : EReal) = if a = b then 1 else 0 := by
  by_cases h : a = b
  · rw [if_pos h, h]
    have : IntOp.cmpi .eq b b = 1#1 := Idealize.ShloMosaic.StableHlo.Predicate.cmpi_eq_iff.mpr rfl
    rw [this]
    norm_num
  · rw [if_neg h]
    have : IntOp.cmpi .eq a b = 0#1 :=
      eq_zero_of_ne_one (fun hc => h (Idealize.ShloMosaic.StableHlo.Predicate.cmpi_eq_iff.mp hc))
    rw [this]
    norm_num

/-- A column of the id block broadcast along a strip's lanes reads, at `(p, q)`, the column's row `p`. -/
theorem bcastTok_apply (v : IVec S256x1 32) (p : Fin 256) (q : Fin 512) :
    broadcastTo S256x512 v broadcasts_S256x1_S256x512 (ix2 p q) = v (ix2 p (0 : Fin 1)) :=
  broadcastTo_apply v broadcasts_S256x1_S256x512 (ix2 p q) (ix2 p (0 : Fin 1)) (fun a => match a with
    | ⟨0, _⟩ => by show p.val = if (256 : Nat) = 1 then 0 else p.val; rw [if_neg (by decide)]
    | ⟨1, _⟩ => by show 0 = if (1 : Nat) = 1 then 0 else q.val; rw [if_pos rfl])

theorem bcastPos_apply (v : IVec S256x1 32) (p : Fin 256) (q : Fin 32) :
    broadcastTo S256x32 v broadcasts_S256x1_S256x32 (ix2 p q) = v (ix2 p (0 : Fin 1)) :=
  broadcastTo_apply v broadcasts_S256x1_S256x32 (ix2 p q) (ix2 p (0 : Fin 1)) (fun a => match a with
    | ⟨0, _⟩ => by show p.val = if (256 : Nat) = 1 then 0 else p.val; rw [if_neg (by decide)]
    | ⟨1, _⟩ => by show 0 = if (1 : Nat) = 1 then 0 else q.val; rw [if_pos rfl])

/-- One column's contribution to a token strip, at `(p, q)`: the indicator of the column's row `p` at the bin's word. -/
theorem hitTok_apply (bins : IVec S256x512 32) (col : Vec Ideal S256x1 .i32) (p : Fin 256) (q : Fin 512) :
    hitTok bins col (ix2 p q) = ind (col (ix2 p (0 : Fin 1))) (bins (ix2 p q)) := by
  show ((((IntOp.cmpi .eq (broadcastTo S256x512 (masked col) broadcasts_S256x1_S256x512 (ix2 p q)) (bins (ix2 p q))).setWidth 32).toInt : ℝ) : EReal) = _
  rw [sitofp_extui_cmpi_eq, bcastTok_apply, masked_apply]
  rfl

theorem hitPos_apply (bins : IVec S256x32 32) (col : Vec Ideal S256x1 .i32) (p : Fin 256) (q : Fin 32) :
    hitPos bins col (ix2 p q) = ind (col (ix2 p (0 : Fin 1))) (bins (ix2 p q)) := by
  show ((((IntOp.cmpi .eq (broadcastTo S256x32 (masked col) broadcasts_S256x1_S256x32 (ix2 p q)) (bins (ix2 p q))).setWidth 32).toInt : ℝ) : EReal) = _
  rw [sitofp_extui_cmpi_eq, bcastPos_apply, masked_apply]
  rfl

/-- A left fold of float additions, read at an index over the extended reals: the start plus the list's sum. -/
theorem foldl_addf_apply {α : Type} {S : Shape} {φ : FTy} (f : α → FVec Ideal S φ) (i : S.Idx) :
    ∀ (l : List α) (acc : FVec Ideal S φ), (l.foldl (fun acc a => addf acc (f a)) acc) i = acc i + (l.map fun a => f a i).sum
  | [], acc => by simp
  | a :: l, acc => by
    rw [List.foldl_cons, foldl_addf_apply f i l, List.map_cons, List.sum_cons, ← add_assoc]
    rfl

/-- Column `l` of an id block, loaded as a [256, 1] vector, reads at row `p` the block's entry `(p, l)`. -/
theorem ld_col (x : Vec Ideal S256x16 .i32) (l : Nat) (hl : l < 16)
    (inb : ∀ a, (![0, l] : Fin 2 → Nat) a + (![256, 1] : Fin 2 → Nat) a ≤ S256x16.size a) (p : Fin 256) :
    View.ld x (Rect.unit ![0, l] ![256, 1] inb) (ix2 p (0 : Fin 1)) = x (ix2 p ⟨l, hl⟩) := by
  show x _ = x _
  congr 1
  funext a
  apply Fin.ext
  match a with
  | ⟨0, _⟩ => show 0 + 1 * p.val = p.val; omega
  | ⟨1, _⟩ => show l + 1 * 0 = l; omega

/-- The sixteen columns' values at row `p`, under any function of the id, are that function along the row. -/
theorem cols_map (x : Vec Ideal S256x16 .i32) (g : BitVec 32 → EReal) (p : Fin 256) :
    ((cols x).map fun col => g (col (ix2 p (0 : Fin 1)))).sum = ∑ l : Fin 16, g (x (ix2 p l)) := by
  rw [Fin.sum_univ_def]
  unfold cols
  simp only [List.map_cons, List.map_nil]
  rw [ld_col x 0 (by decide), ld_col x 1 (by decide), ld_col x 2 (by decide), ld_col x 3 (by decide), ld_col x 4 (by decide), ld_col x 5 (by decide), ld_col x 6 (by decide), ld_col x 7 (by decide), ld_col x 8 (by decide), ld_col x 9 (by decide), ld_col x 10 (by decide), ld_col x 11 (by decide), ld_col x 12 (by decide), ld_col x 13 (by decide), ld_col x 14 (by decide), ld_col x 15 (by decide)]
  rfl

/-- A token strip at `(p, q)`: over the 16 columns of row `p`, the indicator of the id at the bin's word. -/
theorem tokStrip_apply (bins : IVec S256x512 32) (x : Vec Ideal S256x16 .i32) (p : Fin 256) (q : Fin 512) :
    tokStrip bins x (ix2 p q) = ∑ l : Fin 16, ind (x (ix2 p l)) (bins (ix2 p q)) := by
  show ((cols x).foldl (fun acc col => addf acc (hitTok bins col)) (broadcast S256x512 (Scalar.ofBits .bf16 0x0000#16))) (ix2 p q) = _
  rw [foldl_addf_apply (fun col => hitTok bins col) (ix2 p q)]
  simp only [hitTok_apply]
  rw [cols_map x (fun t => ind t (bins (ix2 p q))) p]
  show Ideal.ofBits .bf16 0x0000#16 + _ = _
  rw [Ideal.ofBits_zero_bf16, zero_add]

/-- The position strip at `(p, q)`, likewise. -/
theorem posStrip_apply (bins : IVec S256x32 32) (x : Vec Ideal S256x16 .i32) (p : Fin 256) (q : Fin 32) :
    posStrip bins x (ix2 p q) = ∑ l : Fin 16, ind (x (ix2 p l)) (bins (ix2 p q)) := by
  show ((cols x).foldl (fun acc col => addf acc (hitPos bins col)) (broadcast S256x32 (Scalar.ofBits .f32 0x00000000#32))) (ix2 p q) = _
  rw [foldl_addf_apply (fun col => hitPos bins col) (ix2 p q)]
  simp only [hitPos_apply]
  rw [cols_map x (fun t => ind t (bins (ix2 p q))) p]
  show Ideal.ofBits .f32 0x00000000#32 + _ = _
  rw [Ideal.ofBits_zero_f32, zero_add]

/-- Lane `q` of a strip's bins holds the word of `q` plus the strip's offset (the lane count along axis 1, then the offset added). -/
theorem bins_word (q off : Nat) : IntOp.addi (BitVec.ofNat 32 (0 * 512 + q)) (BitVec.ofNat 32 off) = BitVec.ofNat 32 (q + off) := by
  unfold IntOp.addi
  rw [Nat.zero_mul, Nat.zero_add, ← BitVec.ofNat_add]

theorem bins0_apply (p : Fin 256) (q : Fin 512) : (k0_pay2 : IVec S256x512 32) (ix2 p q) = BitVec.ofNat 32 (q.val + 0) :=
  bins_word q.val 0
theorem bins1_apply (p : Fin 256) (q : Fin 512) : (k0_pay13 : IVec S256x512 32) (ix2 p q) = BitVec.ofNat 32 (q.val + 512) :=
  bins_word q.val 512
theorem bins2_apply (p : Fin 256) (q : Fin 512) : (k0_pay23 : IVec S256x512 32) (ix2 p q) = BitVec.ofNat 32 (q.val + 1024) :=
  bins_word q.val 1024
theorem bins3_apply (p : Fin 256) (q : Fin 512) : (k0_pay33 : IVec S256x512 32) (ix2 p q) = BitVec.ofNat 32 (q.val + 1536) :=
  bins_word q.val 1536
theorem binsPos_apply (p : Fin 256) (q : Fin 32) :
    (iota Kind.tc S256x32 32 [1] iota_S256x32_d1_w32 : IVec S256x32 32) (ix2 p q) = BitVec.ofNat 32 q.val := by
  show BitVec.ofNat 32 (0 * 32 + q.val) = _
  rw [Nat.zero_mul, Nat.zero_add]

end Cert.KernelIdeal.Hist

end
-- ==== Proof.KernelBlock.lean ====
/-
  What the body leaves in the output block, over the extended reals.

  Row `p` of the [256, 2080] output block holds, in column `b < 2048`, the number of the row's 16 token ids that are
  `b` (the padding id 0 counting for no bin), and in column `2048 + b` the same count over the row's 16 position ids.
  The body stores the block in five pieces (four strips of 512 token bins, one of 32 position bins); each piece is that
  one function at the piece's place, so the block is.
-/
import proofs.«417201_j31868657336782_3_alg».proof.Proof.KernelSteps
import proofs.«417201_j31868657336782_3_alg».proof.Proof.Gen.KernelIdeal.Frame
import Idealize.ShloMosaic.Lib.Pipeline.Value
import Idealize.ShloMosaic.Lib.Tactic

set_option maxRecDepth 16384

noncomputable section

namespace Cert.KernelIdeal.Hist

open Cert.KernelIdeal Cert.KernelIdeal.Gen Cert.Hist Idealize.ShloMosaic Idealize.ShloMosaic.TcCoe Idealize.SL.Sem
open Idealize.ShloMosaic.Tactic Idealize.ShloMosaic.ValueIdx

/-- How many of row `r`'s 16 ids are bin `b`'s word, the padding id moved out of every bin (0 off the block). -/
def rowCount (x : Vec Ideal S256x16 .i32) (r b : Nat) : EReal :=
  if h : r < 256 then ∑ l : Fin 16, ind (x (ix2 (⟨r, h⟩ : Fin 256) l)) (BitVec.ofNat 32 b) else 0

/-- The output block as one function of the two id blocks. -/
def blockHist (x0 x1 : Vec Ideal S256x16 .i32) : S256x2080.Idx → EReal := fun y =>
  if (y 1).val < 2048 then rowCount x0 (y 0).val (y 1).val else rowCount x1 (y 0).val ((y 1).val - 2048)

/-- A token strip stored at column offset `off` is the block's function there. -/
theorem tokPiece (bins : IVec S256x512 32) (off : Nat) (hoff : off + 512 ≤ 2048)
    (hbins : ∀ (p : Fin 256) (q : Fin 512), bins (ix2 p q) = BitVec.ofNat 32 (q.val + off))
    (inb : ∀ a, (![0, off] : Fin 2 → Nat) a + (![256, 512] : Fin 2 → Nat) a ≤ S256x2080.size a)
    (x0 x1 : Vec Ideal S256x16 .i32) (x : S256x512.Idx) :
    tokStrip bins x0 x = blockHist x0 x1 ((Rect.unit (s := S256x2080) ![0, off] ![256, 512] inb).emb x) := by
  obtain ⟨p, q, rfl⟩ : ∃ (p : Fin 256) (q : Fin 512), x = ix2 p q := ⟨x 0, x 1, eq_ix2 x⟩
  rw [tokStrip_apply, hbins]
  unfold blockHist
  show _ = if off + 1 * q.val < 2048 then rowCount x0 (0 + 1 * p.val) (off + 1 * q.val) else _
  have hq := q.isLt
  rw [if_pos (by omega)]
  unfold rowCount
  rw [show 0 + 1 * p.val = p.val by omega, show off + 1 * q.val = q.val + off by omega, dif_pos p.isLt]

/-- The position strip, stored at column offset 2048, is the block's function there. -/
theorem posPiece (bins : IVec S256x32 32) (hbins : ∀ (p : Fin 256) (q : Fin 32), bins (ix2 p q) = BitVec.ofNat 32 q.val)
    (inb : ∀ a, (![0, 2048] : Fin 2 → Nat) a + (![256, 32] : Fin 2 → Nat) a ≤ S256x2080.size a)
    (x0 x1 : Vec Ideal S256x16 .i32) (x : S256x32.Idx) :
    posStrip bins x1 x = blockHist x0 x1 ((Rect.unit (s := S256x2080) ![0, 2048] ![256, 32] inb).emb x) := by
  obtain ⟨p, q, rfl⟩ : ∃ (p : Fin 256) (q : Fin 32), x = ix2 p q := ⟨x 0, x 1, eq_ix2 x⟩
  rw [posStrip_apply, hbins]
  unfold blockHist
  show _ = if 2048 + 1 * q.val < 2048 then _ else rowCount x1 (0 + 1 * p.val) (2048 + 1 * q.val - 2048)
  have hq := q.isLt
  rw [if_neg (by omega)]
  unfold rowCount
  rw [show 0 + 1 * p.val = p.val by omega, show 2048 + 1 * q.val - 2048 = q.val by omega, dif_pos p.isLt]

/-- The body's five stores leave the block's function in the output's staging buffer: each stored piece is that
    function at the piece's place, and the pieces cover the block. -/
theorem out0_eq (c : Dev nD) (i : grid0.Coords) (a1 : Memref sig .tc .vmem S256x16 .i32) (h1 : a1.IsWhole)
    (a2 : Memref sig .tc .vmem S256x16 .i32) (h2 : a2.IsWhole) (a3 : Memref sig .tc .vmem S256x2080 .f32) (h3 : a3.IsWhole)
    (x0 x1 : Vec Ideal S256x16 .i32) :
    out0_A_2 (F := Ideal) c i a1 h1 a2 h2 a3 h3 x0 x1 = blockHist x0 x1 := by
  funext y
  unfold out0_A_2
  rw [View.read_writes_eq_canon _ _ _ (cover0_A_2 c i a1 h1 a2 h2 a3 h3 x0 x1)]
  refine View.canon_apply_of_pieces (blockHist x0 x1) _ ?_ y (cover0_A_2 c i a1 h1 a2 h2 a3 h3 x0 x1 y)
  unfold kernelRun0_A
  dsimp only
  sl_unfold_words
  simp only [View.readAt_eq_ld, h1.read_unread, h2.read_unread]
  intro pc hpc x
  rcases List.mem_cons.mp hpc with rfl | hpc
  · exact (congrFun (piecePos_eq x1) x).trans (posPiece _ binsPos_apply inb_S256x2080_S256x32_0_2048 x0 x1 x)
  rcases List.mem_cons.mp hpc with rfl | hpc
  · exact (congrFun (piece3_eq x0) x).trans (tokPiece _ 1536 (by omega) bins3_apply inb_S256x2080_S256x512_0_1536 x0 x1 x)
  rcases List.mem_cons.mp hpc with rfl | hpc
  · exact (congrFun (piece2_eq x0) x).trans (tokPiece _ 1024 (by omega) bins2_apply inb_S256x2080_S256x512_0_1024 x0 x1 x)
  rcases List.mem_cons.mp hpc with rfl | hpc
  · exact (congrFun (piece1_eq x0) x).trans (tokPiece _ 512 (by omega) bins1_apply inb_S256x2080_S256x512_0_512 x0 x1 x)
  rcases List.mem_cons.mp hpc with rfl | hpc
  · exact (congrFun (piece0_eq x0) x).trans (tokPiece _ 0 (by omega) bins0_apply inb_S256x2080_S256x512_0_0 x0 x1 x)
  exact absurd hpc List.not_mem_nil

end Cert.KernelIdeal.Hist

end
-- ==== Proof.KernelArray.lean ====
/-
  From the output block to the output array, and the kernel's run read as a value.

  The grid has 64 points; point `t` stages rows `256 t … 256 t + 255` of the two [16384, 16] id arrays and writes back
  rows `256 t … 256 t + 255` of the [16384, 2080] output. What it writes back is the block's function of the staged
  rows, which is the restriction to those rows of ONE function of the whole id arrays (the specification's `hist2d`: per
  row, the count of each token bin, then of each position bin); the 64 blocks cover the array, so the array ends at that function.
  Before the region the two id arrays are the arguments reshaped, and after it the result is the output reshaped.
-/
import proofs.«417201_j31868657336782_3_alg».proof.Proof.KernelBlock
import Idealize.ShloMosaic.Lib.StableHlo.Run

set_option maxRecDepth 16384

noncomputable section

namespace Cert.KernelIdeal.Hist

open Cert.KernelIdeal Cert.KernelIdeal.Gen Cert.Hist Idealize.ShloMosaic Idealize.ShloMosaic.TcCoe Idealize.SL.Sem
open Idealize.ShloMosaic.Tactic Idealize.ShloMosaic.ValueIdx
open Idealize.ShloMosaic.Pipeline (Dat)

variable (m : (ℓ : Loc nD τ sig) → Buf (Elt Ideal) ℓ) (ρ : Dev nD → PrngReg)

/-- The printed index maps, decided over the grid: every window's block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The block's function of a block of rows is the array's function restricted to those rows. -/
theorem blockHist_rows (T P : S16384x16.Idx → BitVec 32) (base : Nat) (x0 x1 : Vec Ideal S256x16 .i32)
    (hb : base + 256 ≤ 16384)
    (h0 : ∀ (p : Fin 256) (l : Fin 16), x0 (ix2 p l) = T (ix2 (⟨base + p.val, by have := p.isLt; omega⟩ : Fin 16384) l))
    (h1 : ∀ (p : Fin 256) (l : Fin 16), x1 (ix2 p l) = P (ix2 (⟨base + p.val, by have := p.isLt; omega⟩ : Fin 16384) l))
    (p : Fin 256) (q : Fin 2080) :
    blockHist x0 x1 (ix2 p q) = hist2d T P (ix2 (⟨base + p.val, by have := p.isLt; omega⟩ : Fin 16384) q) := by
  have hp := p.isLt
  unfold blockHist hist2d rowCount rowCnt
  show (if q.val < 2048 then (if h : p.val < 256 then _ else 0) else (if h : p.val < 256 then _ else 0))
    = (if q.val < 2048 then (if h : base + p.val < 16384 then _ else 0) else (if h : base + p.val < 16384 then _ else 0))
  rw [dif_pos hp, dif_pos hp, dif_pos (by omega), dif_pos (by omega)]
  simp only [h0, h1]

/-- The same at any index of the block. -/
theorem blockHist_rows' (T P : S16384x16.Idx → BitVec 32) (base : Nat) (x0 x1 : Vec Ideal S256x16 .i32)
    (hb : base + 256 ≤ 16384)
    (h0 : ∀ (p : Fin 256) (l : Fin 16), x0 (ix2 p l) = T (ix2 (⟨base + p.val, by have := p.isLt; omega⟩ : Fin 16384) l))
    (h1 : ∀ (p : Fin 256) (l : Fin 16), x1 (ix2 p l) = P (ix2 (⟨base + p.val, by have := p.isLt; omega⟩ : Fin 16384) l))
    (y : S256x2080.Idx) :
    blockHist x0 x1 y = hist2d T P (ix2 (⟨base + (y 0).val, by have := idx2_lt0 y; omega⟩ : Fin 16384)
      (⟨(y 1).val, idx2_lt1 y⟩ : Fin 2080)) := by
  exact (congrArg (blockHist x0 x1) (eq_ix2 y)).trans (blockHist_rows T P base x0 x1 hb h0 h1 (y 0) (y 1))

/-- Point `t`'s staged block of the token ids reads, at `(p, l)`, the id array as the region finds it at row `256 t + p`. -/
theorem iblk0_apply (c : Dev nD) (t : Fin cfg0.N) (p : Fin 256) (l : Fin 16) (h : t.val * 256 + p.val < 16384) :
    (iblk m c 0 t : Vec Ideal S256x16 .i32) (ix2 p l)
      = (V m c main_v0 : S16384x16.Idx → BitVec 32) (ix2 (⟨t.val * 256 + p.val, h⟩ : Fin 16384) l) := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 16 + 1 * l.val = l.val; rw [e1]; omega

/-- The same for the position ids. -/
theorem iblk1_apply (c : Dev nD) (t : Fin cfg0.N) (p : Fin 256) (l : Fin 16) (h : t.val * 256 + p.val < 16384) :
    (iblk m c 1 t : Vec Ideal S256x16 .i32) (ix2 p l)
      = (V m c main_v1 : S16384x16.Idx → BitVec 32) (ix2 (⟨t.val * 256 + p.val, h⟩ : Fin 16384) l) := by
  obtain ⟨-, -, e2, e3, -, -⟩ := idx_facts t
  unfold iblk
  rw [View.read_apply]
  show V m c main_v1 _ = V m c main_v1 _
  congr 1
  funext a
  apply Fin.ext
  match a with
  | ⟨0, _⟩ => show win0_1.index t (0 : Fin 2) * 256 + 1 * p.val = t.val * 256 + p.val; rw [e2]; omega
  | ⟨1, _⟩ => show win0_1.index t (1 : Fin 2) * 16 + 1 * l.val = l.val; rw [e3]; omega

/-- WHAT POINT `t` WRITES BACK is block `t` of the whole array's function of the id arrays as the region finds them. -/
theorem flushed_eq (c : Dev nD) (t : Fin cfg0.N) :
    (dats m 0 c).flushed 2 t
      = ((cfg0.win 2).blk t).view.read (Elt Ideal) (hist2d (V m c main_v0) (V m c main_v1)) := by
  have hN : cfg0.N = 64 := N_0
  have ht := t.isLt
  obtain ⟨-, -, -, -, e4, e5⟩ := idx_facts t
  show (cfg0.win 2).cut (grid0.coords t) ((dats m 0 c).after 2 t) = _
  rw [after0_2]
  unfold outsAt0
  rw [out0_eq]
  funext j
  show blockHist (iblk m c 0 t) (iblk m c 1 t) j
    = hist2d (V m c main_v0) (V m c main_v1) (((cfg0.win 2).blk t).view.emb j)
  refine (blockHist_rows' (V m c main_v0) (V m c main_v1) (t.val * 256) (iblk m c 0 t) (iblk m c 1 t) (by omega)
    (fun p l => iblk0_apply m c t p l _) (fun p l => iblk1_apply m c t p l _) j).trans ?_
  congr 1
  funext a
  apply Fin.ext
  match a with
  | ⟨0, _⟩ => show t.val * 256 + (j 0).val = win0_2.index t (0 : Fin 2) * 256 + 1 * (j 0).val; rw [e4]; omega
  | ⟨1, _⟩ => show (j 1).val = win0_2.index t (1 : Fin 2) * 2080 + 1 * (j 1).val; rw [e5]; omega

/-- THE OUTPUT ARRAY after the region: the 64 written-back blocks cover it (row `r` lies in block `r / 256`), so it
    holds the whole array's function of the id arrays as the region found them. -/
theorem final (c : Dev nD) : (dats m 0 c).arrAt 2 cfg0.N = hist2d (V m c main_v0) (V m c main_v1) :=
  (dats m 0 c).arrAt_eq_of_cover 2 (hist2d (V m c main_v0) (V m c main_v1)) (fun t _ => flushed_eq m c t) fun i => by
    have hN : cfg0.N = 64 := N_0
    have hi0 : (i 0).val < 16384 := (i 0).isLt
    have hi1 : (i 1).val < 2080 := (i 1).isLt
    have ht : (i 0).val / 256 < cfg0.N := by omega
    obtain ⟨-, -, -, -, e4, e5⟩ := idx_facts ⟨(i 0).val / 256, ht⟩
    refine ⟨⟨(i 0).val / 256, ht⟩, flush0_2 _, ?_⟩
    show i ∈ ((View.whole main_v2).slice (win0_2.rect ⟨(i 0).val / 256, ht⟩)).set
    rw [View.set_slice_whole, Rect.mem_set_unit]
    intro a
    match a with
    | ⟨0, _⟩ =>
      show win0_2.index ⟨(i 0).val / 256, ht⟩ (0 : Fin 2) * 256 ≤ (i 0).val
        ∧ (i 0).val < win0_2.index ⟨(i 0).val / 256, ht⟩ (0 : Fin 2) * 256 + 256
      rw [e4]; dsimp only; omega
    | ⟨1, _⟩ =>
      show win0_2.index ⟨(i 0).val / 256, ht⟩ (1 : Fin 2) * 2080 ≤ (i 1).val
        ∧ (i 1).val < win0_2.index ⟨(i 0).val / 256, ht⟩ (1 : Fin 2) * 2080 + 2080
      rw [e5]; omega

/-- Before the region the token id array is the first argument reshaped to [16384, 16]; -/
theorem V_v0 (c : Dev nD) : (V m c main_v0 : S16384x16.Idx → BitVec 32)
    = shapeCast S16384x16 (m ((c : Thread nD τ).loc main_arg0)) shapeCasts_S32x512x16_S16384x16 := by
  show StableHlo.after hostOps0 (fun b => m (c, b)) (Proc.devRef .tc main_v0) = _
  after_results
  rfl

/-- and the position id array the second. -/
theorem V_v1 (c : Dev nD) : (V m c main_v1 : S16384x16.Idx → BitVec 32)
    = shapeCast S16384x16 (m ((c : Thread nD τ).loc main_arg1)) shapeCasts_S32x512x16_S16384x16 := by
  show StableHlo.after hostOps0 (fun b => m (c, b)) (Proc.devRef .tc main_v1) = _
  after_results
  rfl

/-- After the region the result is the output array reshaped to [32, 512, 2080]. -/
theorem tail_v3 (c : Dev nD) :
    Pipeline.afterTail₀ cfgs (dats m) 0 (V0 m) [hostOps1] c main_v3
      = shapeCast S32x512x2080 ((dats m 0 c).arrAt 2 cfg0.N) shapeCasts_S16384x2080_S32x512x2080 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [e]
  rfl

/-- THE KERNEL'S RUN, READ: every weakly fair execution terminates with the result at the whole array's function of
    the reshaped arguments, reshaped to [32, 512, 2080], and the arguments unchanged. -/
theorem run : θ_run defs (onTc (τ := τ) (main (F := Ideal))) ⟨m, fun _ => 0, ρ⟩ fun r => ∀ c : Dev nD,
      r.2.mem ((c : Thread nD τ).loc main_v3)
        = shapeCast S32x512x2080
            (hist2d (shapeCast S16384x16 (m ((c : Thread nD τ).loc main_arg0)) shapeCasts_S32x512x16_S16384x16)
              (shapeCast S16384x16 (m ((c : Thread nD τ).loc main_arg1)) shapeCasts_S32x512x16_S16384x16))
            shapeCasts_S16384x2080_S32x512x2080
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans
        ((tail_v3 m c).trans (by rw [final, V_v0, V_v1])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hist

end
-- ==== Proof.PreNonneg.lean ====
/-
  The precondition, read back: both id arrays are non-negative.

  The printed predicate compares each array with 0 (signed ≥), takes "all" of each comparison (a reduce by `and` from 1)
  and joins the two. That it is 1 says every id of both arrays is non-negative as a signed word.
-/
import proofs.«417201_j31868657336782_3_alg».proof.Pre_any_inputs
import Idealize.ShloMosaic.Lib.ReduceAll
import Idealize.ShloMosaic.Lib.ValueIdx

noncomputable section

namespace Cert.Pre_any_inputs

open Idealize.ShloMosaic

variable [Facts]
open Facts

theorem nonneg_of_pre {F : FTy → Type} [FloatOps F] (a0 a1 : IVec S32x512x16 32)
    (h : fn (F := F) a0 a1 = fun _ => 1#1) :
    (∀ i, 0 ≤ (a0 i).toInt) ∧ (∀ i, 0 ≤ (a1 i).toInt) := by
  have h' := congrFun h ValueIdx.ix0
  dsimp only [fn] at h'
  obtain ⟨hA, hB⟩ := IntOp.andi_eq_one.1 h'
  haveI : Subsingleton S_.Idx := ⟨fun a b => funext fun d => d.elim0⟩
  constructor
  · intro i
    have e := Host.reduce_andi_all _ _ _ _ ValueIdx.ix0 hA i
    have e' : IntOp.cmpi .sge (a0 i) 0#32 = 1#1 := e
    have := IntOp.cmpi_sge.1 e'
    simpa using this
  · intro i
    have e := Host.reduce_andi_all _ _ _ _ ValueIdx.ix0 hB i
    have e' : IntOp.cmpi .sge (a1 i) 0#32 = 1#1 := e
    have := IntOp.cmpi_sge.1 e'
    simpa using this

end Cert.Pre_any_inputs

end
-- ==== Proof.lean ====
/-
  Per-row histograms of token and position ids: the kernel against its jnp reference, over the extended reals.

  Inputs: two int32[32, 512, 16] arrays of ids. Both programs reshape them to [16384, 16] (one row per word: 16 token
  ids, 16 position ids) and produce f32[32, 512, 2080]: per row, the count of each of 2048 token bins followed by the
  count of each of 32 position bins, the padding id 0 counted in no bin.

  The kernel compares, column by column, the row's id (with 0 moved to -1, which is no bin) against an iota of bins and
  adds the indicators — in four strips of 512 token bins accumulated in bf16 and one strip of 32 position bins in f32;
  over the extended reals a change of float format is the identity and the additions are exact, so each entry is the sum
  over the 16 columns of the indicator. The reference scatter-adds "1 unless the id is 0" at (row, id) pairs, the id
  first wrapped the way jnp wraps a negative index; over the extended reals the scatter-add is the exact sum of the
  updates that land on an element. For a NEGATIVE id the two differ (the reference wraps it to a bin, the kernel counts
  it nowhere), so the claim is stated under the precondition that no id is negative; then the wrap does nothing, an id
  at or past the last bin is dropped by the scatter and matches no bin of the kernel, and both results are the one
  function `Cert.Hist.hist2d` of the reshaped arguments, reshaped.

  The three frames are the generated frame runs (the reference's its generated run with the result dropped); no
  rewrite was applied by the idealization, so `preserves` is `True`.
-/
import proofs.«417201_j31868657336782_3_alg».proof.Defs
import proofs.«417201_j31868657336782_3_alg».proof.Proof.Gen.Kernel
import proofs.«417201_j31868657336782_3_alg».proof.Proof.Gen.Kernel.Frame
import proofs.«417201_j31868657336782_3_alg».proof.Proof.Gen.KernelIdeal
import proofs.«417201_j31868657336782_3_alg».proof.Proof.Gen.KernelIdeal.Frame
import proofs.«417201_j31868657336782_3_alg».proof.Proof.Gen.ReferenceIdeal
import proofs.«417201_j31868657336782_3_alg».proof.Proof.Gen.Pre_any_inputs
import proofs.«417201_j31868657336782_3_alg».proof.Proof.RefRun
import proofs.«417201_j31868657336782_3_alg».proof.Proof.RefRead
import proofs.«417201_j31868657336782_3_alg».proof.Proof.RefValue
import proofs.«417201_j31868657336782_3_alg».proof.Proof.KernelArray
import proofs.«417201_j31868657336782_3_alg».proof.Proof.PreNonneg
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- Both runs end at the whole array's function of the reshaped arguments, reshaped: the kernel's by its blocks, the
    reference's by its two scatter-adds under the precondition that no id is negative, of arguments that agree. -/
theorem algebraic : Cert.algebraic_KernelIdeal_ReferenceIdeal := by
  intro m ρ m' ρ' hpre hagree
  refine ⟨_, Cert.KernelIdeal.Hist.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1⟩ := Cert.Pre_any_inputs.nonneg_of_pre (F := Ideal) _ _ (hpre c)
  rw [Cert.ReferenceIdeal.ReadP.val_main_v43_eq, (hagree c).1, (hagree c).2,
    Cert.ReferenceIdeal.RefValue.v43_eq _ _ h0 h1]

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
